-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S1x256x1024 : Shape := ⟨3, ![1, 256, 1024]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S1x256x1024 : S_.BroadcastsInDim S1x256x1024 (![] : Fin 0 → Fin S1x256x1024.rank)
  reducesTo_S1x256x1024_S_d0_1_2 : S1x256x1024.ReducesTo [0, 1, 2] S_

variable [Facts]

def fn {F : FTy → Type} [FloatOps F] (main_arg0 : FVec F S32768x256 .f32) (main_arg1 : FVec F S1x256x1024 .f32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S1x256x1024 .f32 := Host.absf main_arg1
  let main_cst_0 : FVec F S_ .f32 := constant S_ .f32 0x7F800000#32
  let main_v5 : FVec F S1x256x1024 .f32 := broadcastInDim S1x256x1024 ![] bcast_S_S1x256x1024 main_cst_0
  let main_v6 : IVec S1x256x1024 1 := cmpf .olt main_v4 main_v5
  let main_c_1 : IVec S_ 1 := constantI S_ 1 1#1
  let main_v7 : IVec S_ 1 := (fun x v => Host.reduce IntOp.andi x v reducesTo_S1x256x1024_S_d0_1_2 h_S_) main_v6 main_c_1
  let main_v8 : IVec S_ 1 := andi main_v3 main_v7
  main_v8
-- ==== Kernel.lean ====
abbrev S32768x256 : Shape := ⟨2, ![32768, 256]⟩
abbrev S1x256x1024 : Shape := ⟨3, ![1, 256, 1024]⟩
abbrev S256x1024 : Shape := ⟨2, ![256, 1024]⟩
abbrev S_ : Shape := ⟨0, ![]⟩
abbrev S1024 : Shape := ⟨1, ![1024]⟩
abbrev S1x1024 : Shape := ⟨2, ![1, 1024]⟩
abbrev S32768x1024 : Shape := ⟨2, ![32768, 1024]⟩
abbrev S2048x256 : Shape := ⟨2, ![2048, 256]⟩
abbrev S2048x1024 : Shape := ⟨2, ![2048, 1024]⟩
abbrev S2048 : Shape := ⟨1, ![2048]⟩
abbrev S2048x1 : Shape := ⟨2, ![2048, 1]⟩

abbrev nBuf : Space → Nat
  | .hbm => 9
  | .vmem => 6
  | .smem => 0
  | _ => 0

abbrev bufTy : (tb : Table) → Fin (tcTables nBuf tb) → BufTy
  | .hbm, ⟨0, _⟩ => ⟨S32768x256, .f32⟩
  | .hbm, ⟨1, _⟩ => ⟨S1x256x1024, .f32⟩
  | .hbm, ⟨2, _⟩ => ⟨S256x1024, .f32⟩
  | .hbm, ⟨3, _⟩ => ⟨S256x1024, .bf16⟩
  | .hbm, ⟨4, _⟩ => ⟨S256x1024, .f32⟩
  | .hbm, ⟨5, _⟩ => ⟨S_, .f32⟩
  | .hbm, ⟨6, _⟩ => ⟨S1024, .f32⟩
  | .hbm, ⟨7, _⟩ => ⟨S1x1024, .f32⟩
  | .hbm, ⟨8, _⟩ => ⟨S32768x1024, .f32⟩
  | .local _ .vmem, ⟨0, _⟩ => ⟨S2048x256, .f32⟩
  | .local _ .vmem, ⟨1, _⟩ => ⟨S2048x256, .f32⟩
  | .local _ .vmem, ⟨2, _⟩ => ⟨S256x1024, .bf16⟩
  | .local _ .vmem, ⟨3, _⟩ => ⟨S1x1024, .f32⟩
  | .local _ .vmem, ⟨4, _⟩ => ⟨S2048x1024, .f32⟩
  | .local _ .vmem, ⟨5, _⟩ => ⟨S2048x1024, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1x256x1024_S256x1024 : S1x256x1024.ShapeCasts S256x1024
  bitsLt_bf16_f32 : FTy.bits .bf16 < FTy.bits .f32
  reducesTo_S256x1024_S1024_d0 : S256x1024.ReducesTo [0] S1024
  h_S_ : 0 < S_.numel
  bcast_S1024_S1x1024_1 : S1024.BroadcastsInDim S1x1024 (![1] : Fin 1 → Fin S1x1024.rank)
  inb_S2048x256_S2048x256_0_0 : ∀ a, (![0, 0] : Fin 2 → Nat) a + S2048x256.size a ≤ S2048x256.size a
  h_S2048x256 : 0 < S2048x256.numel
  reduces_S2048x256_S2048 : S2048x256.Reduces [1] S2048
  shapeCasts_S2048_S2048x1 : S2048.ShapeCasts S2048x1
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S2048x1_S2048x1024 : S2048x1.Broadcasts S2048x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  dot_S2048x256_S256x1024_S2048x1024_1_0_0_1_n_n_wf : DotDims.WF S2048x256 S256x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S32768x256.size a
  hwx0_0 : ∀ i : grid0.Coords, EltTy.bits .f32 = 32 ∨ (Rect.block (s := S32768x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .bf16 = 32 ∨ (Rect.block (s := S256x1024) S256x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S32768x1024.size a
  hwx0_3 : ∀ i : grid0.Coords, EltTy.bits .f32 = 32 ∨ (Rect.block (s := S32768x1024) S2048x1024.size (cc0_transform_3 i) (hinb0_3 i)).WholeWords (EltTy.packing .f32)

variable [Facts₀]

def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x256 : Shape := ⟨2, ![32768, 256]⟩
abbrev S1x256x1024 : Shape := ⟨3, ![1, 256, 1024]⟩
abbrev S256x1024 : Shape := ⟨2, ![256, 1024]⟩
abbrev S_ : Shape := ⟨0, ![]⟩
abbrev S32768 : Shape := ⟨1, ![32768]⟩
abbrev S32768x1 : Shape := ⟨2, ![32768, 1]⟩
abbrev S1024 : Shape := ⟨1, ![1024]⟩
abbrev S1x1024 : Shape := ⟨2, ![1, 1024]⟩
abbrev S32768x1024 : Shape := ⟨2, ![32768, 1024]⟩

abbrev nBuf : Space → Nat
  | .hbm => 19
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S1x256x1024, .f32⟩
  | .hbm, ⟨2, _⟩ => ⟨S256x1024, .f32⟩
  | .hbm, ⟨3, _⟩ => ⟨S32768x256, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S256x1024, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S32768x1024, .f32⟩
  | .hbm, ⟨12, _⟩ => ⟨S_, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x1024, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  shapeCasts_S1x256x1024_S256x1024 : S1x256x1024.ShapeCasts S256x1024
  reducesTo_S32768x256_S32768_d1 : S32768x256.ReducesTo [1] S32768
  h_S_ : 0 < S_.numel
  bcast_S32768_S32768x1_0 : S32768.BroadcastsInDim S32768x1 (![0] : Fin 1 → Fin S32768x1.rank)
  reducesTo_S256x1024_S1024_d0 : S256x1024.ReducesTo [0] S1024
  bcast_S1024_S1x1024_1 : S1024.BroadcastsInDim S1x1024 (![1] : Fin 1 → Fin S1x1024.rank)
  bcast_S_S32768x1024 : S_.BroadcastsInDim S32768x1024 (![] : Fin 0 → Fin S32768x1024.rank)
  bcast_S32768x1_S32768x1024_0_1 : S32768x1.BroadcastsInDim S32768x1024 (![0, 1] : Fin 2 → Fin S32768x1024.rank)
  bcast_S1x1024_S32768x1024_0_1 : S1x1024.BroadcastsInDim S32768x1024 (![0, 1] : Fin 2 → Fin S32768x1024.rank)
  dot_S32768x256_S256x1024_S32768x1024_1_0_0_1_n_n_wf : DotDims.WF S32768x256 S256x1024 S32768x1024 [1] [0] [0] [1] [] []

variable [Facts₀]

def dot_S32768x256_S256x1024_S32768x1024_1_0_0_1_n_n : DotDims S32768x256 S256x1024 S32768x1024 where
  lhsContracting := [1]
  rhsContracting := [0]
  lhsNonContracting := [0]
  rhsNonContracting := [1]
  lhsBatch := []
  rhsBatch := []
  wf := dot_S32768x256_S256x1024_S32768x1024_1_0_0_1_n_n_wf

class Facts : Prop extends Facts₀ where

variable [Facts]
-- ==== Proof.Spec.lean ====
/-
  The squared Euclidean distance from each of the 32768 rows of `x` to each of the 1024 columns of the weight matrix,
  written as ONE function of the two argument arrays. Entry (b, o) is

      |x_b|² + |w_o|² − 2 · ⟨x_b, w_o⟩,

  each of the three terms a sum over the 256 coordinates the row and the column share. The weight array carries a
  leading axis of extent one, so the column `o` is read at (0, k, o).

  Both programs compute these three sums and differ only in how they group the final additions: one adds the two
  squared norms and then takes the doubled inner product away, the other takes it away from the row's norm and adds the
  column's afterwards. On the extended reals a difference is a sum with the opposite, and addition is commutative and
  associative at the infinities too, so the two groupings agree for ALL values (`regroup`): no finiteness is used.
-/
import Idealize.ShloMosaic.PureOps.Ideal
import Idealize.ShloMosaic.Lib.ValueIdx

noncomputable section

open scoped BigOperators

namespace Cert.SqDist

open Idealize.ShloMosaic Idealize.ShloMosaic.ValueIdx

/-- The array of rows: 32768 points of 256 coordinates. -/
abbrev Rows : Type := (⟨2, ![32768, 256]⟩ : Shape).Idx → EReal
/-- The array of columns, under its leading axis of extent one: 1024 centres of 256 coordinates. -/
abbrev Cols : Type := (⟨3, ![1, 256, 1024]⟩ : Shape).Idx → EReal

/-- The factor of the inner product: the float whose value is two. -/
abbrev two : EReal := Ideal.ofBits .f32 0x40000000#32

/-- |x_b|²: the sum of the squares of row `b`. -/
def rowSq (x : Rows) (b : Fin 32768) : EReal := ∑ k : Fin 256, x (ix2 b k) * x (ix2 b k)

/-- |w_o|²: the sum of the squares of column `o`. -/
def colSq (w : Cols) (o : Fin 1024) : EReal := ∑ k : Fin 256, w (ix3 0 k o) * w (ix3 0 k o)

/-- ⟨x_b, w_o⟩: the inner product of row `b` with column `o`. -/
def rowDotCol (x : Rows) (w : Cols) (b : Fin 32768) (o : Fin 1024) : EReal := ∑ k : Fin 256, x (ix2 b k) * w (ix3 0 k o)

/-- The squared distance at (b, o), in the grouping that adds the two norms first. -/
def sqDist (x : Rows) (w : Cols) : (⟨2, ![32768, 1024]⟩ : Shape).Idx → EReal :=
  fun j => (rowSq x (j 0) + colSq w (j 1)) - two * rowDotCol x w (j 0) (j 1)

/-- Taking `d` away before or after adding `c` is the same on the extended reals, whatever the three values. -/
theorem regroup (a c d : EReal) : (a - d) + c = (a + c) - d := by
  rw [sub_eq_add_neg, sub_eq_add_neg, add_right_comm]

end Cert.SqDist

end
-- ==== Proof.Payload.lean ====
/-
  What the kernel's body computes for one block, read one entry at a time.

  The body holds a block of 2048 rows of `x` (2048 × 256), the whole weight matrix as the host prepared it (256 × 1024) and
  the row of column norms the host prepared (1 × 1024), and stores a 2048 × 1024 block. Entry (p, o) of what it stores is

      (Σ_k x[p,k]² + norms[0,o]) − 2 · Σ_k x[p,k] · w[k,o].

  The row sum is taken along the second axis, reshaped to a column and spread over the 1024 columns; the norms are spread
  over the 2048 rows; the matrix product accumulates into zero, so it is the plain sum over the 256 shared coordinates.
  The change of float format applied to `x` before the product is the identity on the values.
-/
import proofs.«419786_j40518721471189_3_alg».proof.Proof.Gen.KernelIdeal.Skeleton
import proofs.«419786_j40518721471189_3_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Payload

open Cert.KernelIdeal Cert.KernelIdeal.Gen Cert.SqDist Idealize.ShloMosaic Idealize.ShloMosaic.ValueIdx

/-! ## The row sum, made a column and spread over the columns -/

/-- A sum along the second axis of a 2048 × 256 array, reshaped to 2048 × 1 and broadcast to 2048 × 1024, read at
    (p, o): the sum of row `p`, whatever the column `o`. -/
theorem rowSum_apply (v : FVec Ideal S2048x256 .f32) (hr : S2048x256.Reduces [1] S2048) (hφ : FKind.Formats .f32)
    (hacc : (0x00000000#32 : BitVec 32) = FKind.add.neutral .f32 hφ)
    (hc : S2048.ShapeCasts S2048x1) (hb : S2048x1.Broadcasts S2048x1024) (p : Fin 2048) (o : Fin 1024) :
    broadcastTo S2048x1024 (shapeCast S2048x1 (multiReduction (F := Ideal) .add [1] S2048 v 0x00000000#32 hr hφ hacc) hc) hb (ix2 p o)
      = ∑ k : Fin 256, v (ix2 p k) := by
  refine (broadcastTo_apply _ hb (ix2 p o) (ix2 p (0 : Fin 1)) (fun a => ?_)).trans ?_
  · match a with
    | ⟨0, _⟩ => show p.val = if (2048 : Nat) = 1 then 0 else p.val; rw [if_neg (by decide)]
    | ⟨1, _⟩ => show (0 : Nat) = if (1 : Nat) = 1 then 0 else o.val; rw [if_pos rfl]
  refine (shapeCast_apply _ hc (ix2 p (0 : Fin 1)) (ix1 p) ?_).trans ?_
  · rw [Shape.rowMajor_val_one, Shape.rowMajor_val_two]
    show p.val = p.val * 1 + 0
    omega
  refine (Ideal.multiReduction_add_single v _ hr hφ hacc (ix1 p)).trans ?_
  exact Finset.sum_congr rfl fun k _ => congrArg v (funext fun a => Fin.ext (by
    match a with | ⟨0, _⟩ => rfl | ⟨1, _⟩ => rfl))

/-! ## The row of column norms, spread over the rows -/

/-- A 1 × 1024 row broadcast to 2048 × 1024, read at (p, o): the row's entry `o`, whatever the row `p`. -/
theorem rowBcast_apply (v : FVec Ideal S1x1024 .f32) (hb : S1x1024.Broadcasts S2048x1024) (p : Fin 2048) (o : Fin 1024) :
    broadcastTo S2048x1024 v hb (ix2 p o) = v (ix2 (0 : Fin 1) o) :=
  broadcastTo_apply v hb (ix2 p o) (ix2 (0 : Fin 1) o) (fun a => by
    match a with
    | ⟨0, _⟩ => show (0 : Nat) = if (1 : Nat) = 1 then 0 else p.val; rw [if_pos rfl]
    | ⟨1, _⟩ => show o.val = if (1024 : Nat) = 1 then 0 else o.val; rw [if_neg (by decide)])

/-! ## The matrix product as a sum over the shared coordinate -/

theorem lhs_axis0 (i : S2048x1024.Idx) (q : dot_S2048x256_S256x1024_S2048x1024_1_0_0_1_n_n.contr.Idx) :
    (dot_S2048x256_S256x1024_S2048x1024_1_0_0_1_n_n.lhsIdx i q 0).val = (i 0).val := by
  unfold DotDims.lhsIdx
  rw [dif_neg (show ¬(0 : Fin S2048x256.rank) ∈ dot_S2048x256_S256x1024_S2048x1024_1_0_0_1_n_n.lhsBatch by decide), dif_pos (show (0 : Fin S2048x256.rank) ∈ dot_S2048x256_S256x1024_S2048x1024_1_0_0_1_n_n.lhsNonContracting by decide)]
  rfl
theorem lhs_axis1 (i : S2048x1024.Idx) (q : dot_S2048x256_S256x1024_S2048x1024_1_0_0_1_n_n.contr.Idx) :
    (dot_S2048x256_S256x1024_S2048x1024_1_0_0_1_n_n.lhsIdx i q 1).val = (q ⟨0, by decide⟩).val :=
  dot_S2048x256_S256x1024_S2048x1024_1_0_0_1_n_n.lhsIdx_val_of_single rfl i q
theorem rhs_axis0 (i : S2048x1024.Idx) (q : dot_S2048x256_S256x1024_S2048x1024_1_0_0_1_n_n.contr.Idx) :
    (dot_S2048x256_S256x1024_S2048x1024_1_0_0_1_n_n.rhsIdx i q 0).val = (q ⟨0, by decide⟩).val :=
  dot_S2048x256_S256x1024_S2048x1024_1_0_0_1_n_n.rhsIdx_val_of_single rfl i q
theorem rhs_axis1 (i : S2048x1024.Idx) (q : dot_S2048x256_S256x1024_S2048x1024_1_0_0_1_n_n.contr.Idx) :
    (dot_S2048x256_S256x1024_S2048x1024_1_0_0_1_n_n.rhsIdx i q 1).val = (i 1).val := by
  unfold DotDims.rhsIdx
  rw [dif_neg (show ¬(1 : Fin S256x1024.rank) ∈ dot_S2048x256_S256x1024_S2048x1024_1_0_0_1_n_n.rhsBatch by decide), dif_pos (show (1 : Fin S256x1024.rank) ∈ dot_S2048x256_S256x1024_S2048x1024_1_0_0_1_n_n.rhsNonContracting by decide)]
  rfl

/-- The 2048 × 256 by 256 × 1024 product accumulated into zero, read at (p, o): the sum over `k` of the left operand at
    (p, k) times the right at (k, o). -/
theorem product_apply (l : FVec Ideal S2048x256 .bf16) (r : FVec Ideal S256x1024 .bf16) (p : Fin 2048) (o : Fin 1024) :
    matmul (F := Ideal) dot_S2048x256_S256x1024_S2048x1024_1_0_0_1_n_n none l r (constant S2048x1024 .f32 0x00000000#32) (ix2 p o)
      = ∑ k : Fin 256, l (ix2 p k) * r (ix2 k o) := by
  simp only [matmul]
  rw [Ideal.matmul_constant_zero_apply, ← Equiv.sum_comp (ValueIdx.contrEquiv1 dot_S2048x256_S256x1024_S2048x1024_1_0_0_1_n_n 256 rfl rfl).symm]
  refine Finset.sum_congr rfl fun k _ => ?_
  have hk := ValueIdx.contrEquiv1_symm_val dot_S2048x256_S256x1024_S2048x1024_1_0_0_1_n_n 256 rfl rfl k
  have el : dot_S2048x256_S256x1024_S2048x1024_1_0_0_1_n_n.lhsIdx (ix2 p o) ((ValueIdx.contrEquiv1 dot_S2048x256_S256x1024_S2048x1024_1_0_0_1_n_n 256 rfl rfl).symm k) = ix2 p k := funext fun a => Fin.ext (by
    match a with
    | ⟨0, _⟩ => exact lhs_axis0 _ _
    | ⟨1, _⟩ => exact (lhs_axis1 _ _).trans hk)
  have er : dot_S2048x256_S256x1024_S2048x1024_1_0_0_1_n_n.rhsIdx (ix2 p o) ((ValueIdx.contrEquiv1 dot_S2048x256_S256x1024_S2048x1024_1_0_0_1_n_n 256 rfl rfl).symm k) = ix2 k o := funext fun a => Fin.ext (by
    match a with
    | ⟨0, _⟩ => exact (rhs_axis0 _ _).trans hk
    | ⟨1, _⟩ => exact rhs_axis1 _ _)
  rw [el, er]

/-! ## The stored block at an entry -/

/-- Entry (p, o) of the block the body stores, from the three blocks it loads. -/
theorem stored_apply (x : FVec Ideal S2048x256 .f32) (w : FVec Ideal S256x1024 .bf16) (n : FVec Ideal S1x1024 .f32)
    (p : Fin 2048) (o : Fin 1024) :
    k0_pay1 (F := Ideal) x w n (ix2 p o)
      = ((∑ k : Fin 256, x (ix2 p k) * x (ix2 p k)) + n (ix2 (0 : Fin 1) o)) - two * ∑ k : Fin 256, x (ix2 p k) * w (ix2 k o) := by
  unfold k0_pay1
  simp only [subf_apply, addf_apply, mulf_apply, broadcast_apply, product_apply, truncf_apply, shapeCast_self]
  refine congrArg₂ (fun a b : EReal => a - two * b) (congrArg₂ (fun a b : EReal => a + b) ?_ ?_) rfl
  · exact rowSum_apply (mulf x x) _ _ _ _ _ p o
  · exact rowBcast_apply n _ p o

end Cert.KernelIdeal.Payload

end
-- ==== Proof.Prepared.lean ====
/-
  What the host prepares for the kernel before the grid starts, read one entry at a time.

  The weight argument [1, 256, 1024] is reshaped to [256, 1024] and changed to the narrower float format: the change of
  format is the identity on the values, and entry (k, o) of the reshaped array is entry (0, k, o) of the argument, because
  the flat position k·1024 + o is the same in both shapes.

  The row of column norms is the sum over the first axis of the squares of the reshaped weight, starting from the float
  zero, laid out as a 1 × 1024 row: its entry (0, o) is Σ_k w[0,k,o]², the squared norm of column `o`.
-/
import proofs.«419786_j40518721471189_3_alg».proof.Proof.Gen.KernelIdeal
import proofs.«419786_j40518721471189_3_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Prepared

open Cert.KernelIdeal Cert.SqDist Idealize.ShloMosaic Idealize.ShloMosaic.ValueIdx

/-- Entry `y` = (k, o) of the reshaped weight is entry (0, k, o) of the argument. -/
theorem reshaped_apply (W : FVec Ideal S1x256x1024 .f32) (hc : S1x256x1024.ShapeCasts S256x1024) (y : S256x1024.Idx) (k : Fin 256) (o : Fin 1024)
    (h0 : (y 0).val = k.val) (h1 : (y 1).val = o.val) :
    shapeCast S256x1024 W hc y = W (ix3 (0 : Fin 1) k o) :=
  shapeCast_apply W hc y (ix3 (0 : Fin 1) k o) (by
    rw [Shape.rowMajor_val_three, Shape.rowMajor_val_two]
    have hk := k.isLt; have ho := o.isLt
    show (0 * 256 + k.val) * 1024 + o.val = (y 0).val * 1024 + (y 1).val
    omega)

/-- The same after the change of float format, which keeps every value. -/
theorem weight_apply (W : FVec Ideal S1x256x1024 .f32) (hc : S1x256x1024.ShapeCasts S256x1024) (hb : FTy.bits .bf16 < FTy.bits .f32)
    (y : S256x1024.Idx) (k : Fin 256) (o : Fin 1024) (h0 : (y 0).val = k.val) (h1 : (y 1).val = o.val) :
    truncf (F := Ideal) .bf16 (shapeCast S256x1024 W hc) hb y = W (ix3 (0 : Fin 1) k o) :=
  reshaped_apply W hc y k o h0 h1

/-- Entry (0, o) of the prepared row is the squared norm of column `o`. -/
theorem norms_apply (W : FVec Ideal S1x256x1024 .f32) (hc : S1x256x1024.ShapeCasts S256x1024) (hrt : S256x1024.ReducesTo [0] S1024) (hS : 0 < S_.numel)
    (hbc : S1024.BroadcastsInDim S1x1024 (![1] : Fin 1 → Fin S1x1024.rank)) (y : S1x1024.Idx) (o : Fin 1024) (hy : (y 1).val = o.val) :
    broadcastInDim S1x1024 ![1] hbc
        (Host.reduceAdd (F := Ideal) (mulf (shapeCast S256x1024 W hc) (shapeCast S256x1024 W hc))
          (constant (F := Ideal) S_ .f32 0x00000000#32) hrt hS) y
      = colSq W o := by
  refine (broadcastInDim_apply _ hbc _ y (ix1 o) (fun a => ?_)).trans ?_
  · match a with
    | ⟨0, _⟩ => show o.val = if (1024 : Nat) = 1 then 0 else (y 1).val; rw [if_neg (by decide), hy]
  generalize hv : mulf (shapeCast S256x1024 W hc) (shapeCast S256x1024 W hc) = v
  simp only [Host.reduceAdd, Ideal.hostReduceAdd_def]
  rw [Ideal.hostReduceAdd_single hrt (by decide)]
  unfold colSq
  refine (congrArg (· + _) (show constant (F := Ideal) S_ .f32 0x00000000#32 _ = (0 : EReal) from Ideal.ofBits_zero_f32)).trans ?_
  rw [zero_add]
  refine Finset.sum_congr rfl fun k _ => ?_
  subst hv
  show shapeCast S256x1024 W hc _ * shapeCast S256x1024 W hc _ = _
  rw [reshaped_apply W hc _ k o rfl rfl]

end Cert.KernelIdeal.Prepared

end
-- ==== Proof.Blocks.lean ====
/-
  From one block to the whole result array.

  The grid has 16 points. Point `t` holds rows 2048·t … 2048·t + 2047 of `x`, the whole prepared weight and the whole
  prepared row of column norms, and writes back rows 2048·t … 2048·t + 2047 of the result, all 1024 columns. So entry
  (p, o) of its block is entry (2048·t + p, o) of the array, the row it reads is row 2048·t + p of `x`, and by the block's
  arithmetic that entry is the squared distance `Cert.SqDist.sqDist` there. The 16 blocks of 2048 rows fill the 32768
  rows — row `r` lies in the block of point r / 2048 — so after the run the whole array is `sqDist` of the two arguments.
-/
import proofs.«419786_j40518721471189_3_alg».proof.Proof.Gen.KernelIdeal.Value
import proofs.«419786_j40518721471189_3_alg».proof.Proof.Payload
import proofs.«419786_j40518721471189_3_alg».proof.Proof.Prepared
import Idealize.ShloMosaic.Lib.StableHlo.Run

set_option maxRecDepth 16384

noncomputable section

open scoped BigOperators

namespace Cert.KernelIdeal.Blocks

open Cert.KernelIdeal Cert.KernelIdeal.Gen Cert.SqDist Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The array of rows as launched. -/
abbrev rows (c : Dev nD) : FVec Ideal S32768x256 .f32 := m ((c : Thread nD τ).loc main_arg0)
/-- The weight array as launched. -/
abbrev cols (c : Dev nD) : FVec Ideal S1x256x1024 .f32 := m ((c : Thread nD τ).loc main_arg1)

theorem zero_offsets : (![0, 0] : Fin 2 → Nat) = fun _ => 0 := funext fun a => by fin_cases a <;> rfl

/-- Where each window's block sits at point `t`, decided over the 16 points: the rows of `x` and of the result move
    together with `t`; the prepared weight and norms are always their one whole block. -/
theorem block_positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## What the grid finds in the two prepared arrays -/

/-- The second window's array: the weight reshaped and changed of format. -/
theorem prepared_weight (c : Dev nD) :
    (V m c main_v1 : S256x1024.Idx → EReal)
      = truncf (F := Ideal) .bf16 (shapeCast S256x1024 (cols m c) shapeCasts_S1x256x1024_S256x1024) bitsLt_bf16_f32 := by
  dsimp only [V, hostOps0]; after_results; rfl

/-- The third window's array: the column sums of the squared reshaped weight, as a row. -/
theorem prepared_norms (c : Dev nD) :
    (V m c main_v4 : S1x1024.Idx → EReal)
      = broadcastInDim S1x1024 ![1] bcast_S1024_S1x1024_1
          (Host.reduceAdd (F := Ideal)
            (mulf (shapeCast S256x1024 (cols m c) shapeCasts_S1x256x1024_S256x1024) (shapeCast S256x1024 (cols m c) shapeCasts_S1x256x1024_S256x1024))
            (constant (F := Ideal) S_ .f32 0x00000000#32) reducesTo_S256x1024_S1024_d0 h_S_) := by
  dsimp only [V, hostOps0]; after_results; rfl

/-! ## One entry of one block -/

/-- If the loaded row `p` is row `i 0` of `X`, the loaded weight column `o` is column `i 1` of `W`, and the loaded norm at
    `o` is that column's squared norm, then entry (p, o) of the stored block is the squared distance at `i`. -/
theorem block_entry (X : Rows) (W : Cols) (x : FVec Ideal S2048x256 .f32) (w : FVec Ideal S256x1024 .bf16) (n : FVec Ideal S1x1024 .f32)
    (i : (⟨2, ![32768, 1024]⟩ : Shape).Idx) (p : Fin 2048) (o : Fin 1024)
    (hx : ∀ k : Fin 256, x (ix2 p k) = X (ix2 (i 0) k))
    (hw : ∀ k : Fin 256, w (ix2 k o) = W (ix3 (0 : Fin 1) k (i 1)))
    (hn : n (ix2 (0 : Fin 1) o) = colSq W (i 1)) :
    k0_pay1 (F := Ideal) x w n (ix2 p o) = sqDist X W i := by
  rw [Payload.stored_apply, hn]
  unfold sqDist rowSq rowDotCol
  simp only [hx, hw]

/-- WHAT POINT `t` WRITES BACK is block `t` of the squared-distance array of the two arguments. -/
theorem flushed_eq (c : Dev nD) (t : Fin cfg0.N) :
    (dats m 0 c).flushed 3 t = ((cfg0.win 3).blk t).view.read (Elt Ideal) (sqDist (rows m c) (cols m c)) := by
  rw [Value.flushed3]
  unfold out0_3
  rw [View.canon_unit_zero zero_offsets]
  simp only [View.ld_unit_zero (S := S2048x256) zero_offsets, View.ld_unit_zero (S := S256x1024) zero_offsets,
    View.ld_unit_zero (S := S1x1024) zero_offsets]
  obtain ⟨e00, e01, e10, e11, e20, e21, e30, e31⟩ := block_positions t
  funext j
  show k0_pay1 (F := Ideal) (iblk m c 0 t) (iblk m c 1 t) (iblk m c 2 t) j
    = sqDist (rows m c) (cols m c) (((cfg0.win 3).blk t).view.emb j)
  refine (congrArg (k0_pay1 (F := Ideal) (iblk m c 0 t) (iblk m c 1 t) (iblk m c 2 t)) (eq_ix2 j)).trans ?_
  refine block_entry (rows m c) (cols m c) (iblk m c 0 t) (iblk m c 1 t) (iblk m c 2 t)
    (((cfg0.win 3).blk t).view.emb j) (j 0) (j 1) ?_ ?_ ?_
  · intro k
    show V m c main_arg0 (((cfg0.win 0).blk t).view.emb (ix2 (j 0) k)) = _
    rw [V_main_arg0]
    refine congrArg (rows m c) (funext fun a => Fin.ext ?_)
    match a with
    | ⟨0, _⟩ =>
      show win0_0.index t (0 : Fin 2) * 2048 + 1 * (j 0).val = win0_3.index t (0 : Fin 2) * 2048 + 1 * (j 0).val
      omega
    | ⟨1, _⟩ =>
      show win0_0.index t (1 : Fin 2) * 256 + 1 * k.val = k.val
      omega
  · intro k
    show (V m c main_v1 : S256x1024.Idx → EReal) (((cfg0.win 1).blk t).view.emb (ix2 k (j 1))) = _
    rw [prepared_weight]
    refine Prepared.weight_apply (cols m c) _ _ _ k _ ?_ ?_
    · show win0_1.index t (0 : Fin 2) * 256 + 1 * k.val = k.val
      omega
    · show win0_1.index t (1 : Fin 2) * 1024 + 1 * (j 1).val = win0_3.index t (1 : Fin 2) * 1024 + 1 * (j 1).val
      omega
  · show (V m c main_v4 : S1x1024.Idx → EReal) (((cfg0.win 2).blk t).view.emb (ix2 (0 : Fin 1) (j 1))) = _
    rw [prepared_norms]
    refine Prepared.norms_apply (cols m c) _ _ _ _ _ _ ?_
    show win0_2.index t (1 : Fin 2) * 1024 + 1 * (j 1).val = win0_3.index t (1 : Fin 2) * 1024 + 1 * (j 1).val
    omega

/-! ## The blocks fill the array -/

/-- An entry of the array is in point `t`'s block iff each coordinate is in the block's range on its axis. -/
theorem mem_block (t : Fin cfg0.N) (i : S32768x1024.Idx) :
    i ∈ ((cfg0.win 3).blk t).view.set ↔ ∀ a : Fin 2, win0_3.index t a * S2048x1024.size a ≤ (i a).val ∧ (i a).val < win0_3.index t a * S2048x1024.size a + S2048x1024.size a := by
  show i ∈ ((View.whole main_v5).slice (win0_3.rect t)).set ↔ _
  rw [View.set_slice_whole, Rect.mem_set_unit]
  exact Iff.rfl

/-- Every entry is in the block of the point its row divided by 2048 names, and every point writes back. -/
theorem covered (i : S32768x1024.Idx) :
    ∃ t : Fin cfg0.N, (cfg0.win 3).flush t = true ∧ i ∈ ((cfg0.win 3).blk t).view.set := by
  have hi0 : (i 0).val < 32768 := (i 0).isLt
  have hi1 : (i 1).val < 1024 := (i 1).isLt
  have ht : (i 0).val / 2048 < 16 := by omega
  obtain ⟨-, -, -, -, -, -, e30, e31⟩ := block_positions ⟨(i 0).val / 2048, ht⟩
  have e30' : win0_3.index ⟨(i 0).val / 2048, ht⟩ (0 : Fin 2) = (i 0).val / 2048 := e30
  refine ⟨⟨(i 0).val / 2048, ht⟩, flush0_3 _, ?_⟩
  rw [mem_block]
  intro a
  match a with
  | ⟨0, _⟩ =>
    show win0_3.index ⟨(i 0).val / 2048, ht⟩ (0 : Fin 2) * 2048 ≤ (i 0).val
      ∧ (i 0).val < win0_3.index ⟨(i 0).val / 2048, ht⟩ (0 : Fin 2) * 2048 + 2048
    omega
  | ⟨1, _⟩ =>
    show win0_3.index ⟨(i 0).val / 2048, ht⟩ (1 : Fin 2) * 1024 ≤ (i 1).val
      ∧ (i 1).val < win0_3.index ⟨(i 0).val / 2048, ht⟩ (1 : Fin 2) * 1024 + 1024
    omega

/-- THE ARRAY after the run is the squared-distance array of the two arguments. -/
theorem final (c : Dev nD) : (dats m 0 c).arrAt 3 cfg0.N = sqDist (rows m c) (cols m c) :=
  (dats m 0 c).arrAt_eq_of_cover 3 (sqDist (rows m c) (cols m c)) (fun t _ => flushed_eq m c t) covered

/-! ## The run, read -/

/-- Every weakly fair execution of the kernel's program terminates with the result array at the squared distances of the
    arguments, and the arguments unchanged. -/
theorem run : θ_run defs (onTc (τ := τ) (main (F := Ideal))) ⟨m, fun _ => 0, ρ⟩ fun r => ∀ c : Dev nD,
      r.2.mem ((c : Thread nD τ).loc main_v5) = sqDist (rows m c) (cols m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Blocks

end
-- ==== Proof.RefValue.lean ====
/-
  The reference program's result, read one entry at a time, IS the squared-distance function `Cert.SqDist.sqDist` of
  the two argument arrays.

  At entry (b, o) the reference adds, to the row's squared norm less twice the inner product, the column's squared norm.
  Each of the three sums starts from the float zero, which is the extended real 0 and drops out. The weight array is
  reshaped from [1, 256, 1024] to [256, 1024] before it is squared, summed and multiplied: entry (k, o) of the reshaped
  array is entry (0, k, o) of the argument, because the flat position k·1024 + o splits back into k and o (o < 1024).
  What is left differs from `sqDist` only in the grouping of the last two additions, which `Cert.SqDist.regroup` settles.
-/
import proofs.«419786_j40518721471189_3_alg».proof.Proof.Gen.ReferenceIdeal.Read
import proofs.«419786_j40518721471189_3_alg».proof.Proof.Spec

noncomputable section

open scoped BigOperators

namespace Cert.ReferenceIdeal.RefValue

open Cert.ReferenceIdeal Cert.ReferenceIdeal.Read Cert.SqDist Idealize.ShloMosaic Idealize.ShloMosaic.ValueIdx

/-- The row entry the row-norm sum reads at its `k`-th term, under the two broadcasts back to the result's shape. -/
theorem row_idx (b : Fin 32768) (o : Fin 1024) (k : Fin 256) :
    idx_main_v2 (idx_main_v3 (idx_main_v10 (ix2 b o))) k = ix2 b k :=
  funext fun a => Fin.ext (by match a with | ⟨0, _⟩ => rfl | ⟨1, _⟩ => rfl)

/-- The row entry the inner product reads at its `k`-th term. -/
theorem lhs_idx (b : Fin 32768) (o : Fin 1024) (k : Fin 256) : lidx_main_v7 (ix2 b o) k = ix2 b k :=
  funext fun a => Fin.ext (by match a with | ⟨0, _⟩ => rfl | ⟨1, _⟩ => rfl)

/-- Entry (k, o) of the reshaped weight is entry (0, k, o) of the argument: k·1024 + o splits back into k and o. -/
theorem reshaped_idx (k : Fin 256) (o : Fin 1024) : idx_main_v0 (ix2 k o) = ix3 0 k o :=
  funext fun a => Fin.ext (by
    have hk := k.isLt; have ho := o.isLt
    match a with
    | ⟨0, _⟩ => rfl
    | ⟨1, _⟩ => show (k.val * 1024 + o.val) / 1024 % 256 = k.val; omega
    | ⟨2, _⟩ => show (k.val * 1024 + o.val) % 1024 = o.val; omega)

/-- The reshaped-weight entry the column-norm sum reads at its `k`-th term. -/
theorem col_idx (b : Fin 32768) (o : Fin 1024) (k : Fin 256) :
    idx_main_v5 (idx_main_v6 (idx_main_v12 (ix2 b o))) k = ix2 k o :=
  funext fun a => Fin.ext (by match a with | ⟨0, _⟩ => rfl | ⟨1, _⟩ => rfl)

/-- The reshaped-weight entry the inner product reads at its `k`-th term. -/
theorem rhs_idx (b : Fin 32768) (o : Fin 1024) (k : Fin 256) : ridx_main_v7 (ix2 b o) k = ix2 k o :=
  funext fun a => Fin.ext (by match a with | ⟨0, _⟩ => rfl | ⟨1, _⟩ => rfl)

/-- The reference's last stage is the squared-distance function of the argument arrays. -/
theorem result_eq (x : Rows) (w : Cols) : val_main_v13 (F := Ideal) x w = sqDist x w := by
  funext i
  obtain ⟨b, o, rfl⟩ : ∃ (b : Fin 32768) (o : Fin 1024), i = ix2 b o := ⟨i 0, i 1, eq_ix2 i⟩
  rw [val_main_v13_apply, val_main_v11_apply, val_main_v10_apply, val_main_v3_apply, val_main_v2_apply,
    val_main_v9_apply, val_main_v8_apply, val_main_cst_1_apply, val_main_v7_apply,
    val_main_v12_apply, val_main_v6_apply, val_main_v5_apply]
  simp only [val_main_v1_apply, val_main_v4_apply, val_main_v0_apply, val_main_cst_apply, val_main_cst_0_apply,
    row_idx, lhs_idx, col_idx, rhs_idx, reshaped_idx,
    Ideal.addf_def, Ideal.subf_def, Ideal.mulf_def, Ideal.ofBits_def, Ideal.ofBits_zero_f32, zero_add]
  exact regroup _ _ _

end Cert.ReferenceIdeal.RefValue

end
-- ==== Proof.lean ====
/-
  Squared Euclidean distances between the 32768 rows of `x` and the 1024 columns of a 256 × 1024 weight matrix:

      out[b, o] = |x_b|² + |w_o|² − 2 · ⟨x_b, w_o⟩.

  The kernel walks the rows in 16 blocks of 2048; the host prepares for it the weight in a narrower float format and the
  row of column norms |w_o|². Each grid point sums the squares of its rows, adds the prepared norms, and takes away twice
  the matrix product of its rows with the weight. The reference computes the same three sums over the whole arrays, takes
  the doubled product away from the row norms first and adds the column norms last.

  Over the extended reals the change of float format is the identity and the matrix products are plain sums, so both
  programs end with the array `Cert.SqDist.sqDist` of the arguments: the kernel block by block (`Cert.KernelIdeal.Blocks.run`),
  the reference stage by stage (`Cert.ReferenceIdeal.RefValue.result_eq`). The two groupings of the last additions agree
  for all extended reals (`Cert.SqDist.regroup`), so the finiteness of the inputs is never used. The ideal pass rewrote
  nothing in the kernel, so there is nothing to preserve.
-/
import proofs.«419786_j40518721471189_3_alg».proof.Defs
import proofs.«419786_j40518721471189_3_alg».proof.Proof.Gen.Kernel
import proofs.«419786_j40518721471189_3_alg».proof.Proof.Gen.Kernel.Skeleton
import proofs.«419786_j40518721471189_3_alg».proof.Proof.Gen.Kernel.Launch
import proofs.«419786_j40518721471189_3_alg».proof.Proof.Gen.Kernel.Points
import proofs.«419786_j40518721471189_3_alg».proof.Proof.Gen.Kernel.Frame
import proofs.«419786_j40518721471189_3_alg».proof.Proof.Gen.KernelIdeal
import proofs.«419786_j40518721471189_3_alg».proof.Proof.Gen.KernelIdeal.Skeleton
import proofs.«419786_j40518721471189_3_alg».proof.Proof.Gen.KernelIdeal.Launch
import proofs.«419786_j40518721471189_3_alg».proof.Proof.Gen.KernelIdeal.Points
import proofs.«419786_j40518721471189_3_alg».proof.Proof.Gen.KernelIdeal.Frame
import proofs.«419786_j40518721471189_3_alg».proof.Proof.Gen.ReferenceIdeal
import proofs.«419786_j40518721471189_3_alg».proof.Proof.Gen.Pre_finite_inputs
import proofs.«419786_j40518721471189_3_alg».proof.Proof.Gen.KernelIdeal.Value
import proofs.«419786_j40518721471189_3_alg».proof.Proof.Gen.ReferenceIdeal.Run
import proofs.«419786_j40518721471189_3_alg».proof.Proof.Gen.ReferenceIdeal.Read
import proofs.«419786_j40518721471189_3_alg».proof.Proof.Blocks
import proofs.«419786_j40518721471189_3_alg».proof.Proof.RefValue
import Idealize.ShloMosaic.Adequacy
import Idealize.ShloMosaic.Init

noncomputable section

namespace Cert.Proof

open Idealize.ShloMosaic Idealize.ShloMosaic.TcCoe Idealize.SL.Sem

/-- The kernel's program, as printed, runs and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments as they were: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, both programs end with the squared-distance array of those arguments. -/
theorem algebraic : Cert.algebraic_KernelIdeal_ReferenceIdeal := by
  intro m ρ m' ρ' _ hagree
  refine ⟨fun c => Cert.SqDist.sqDist (Cert.KernelIdeal.Blocks.rows m c) (Cert.KernelIdeal.Blocks.cols m c),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
